-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S65536 : Shape := ⟨1, ![65536]⟩
abbrev S512 : Shape := ⟨1, ![512]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel
  bcast_S_S65536 : S_.BroadcastsInDim S65536 (![] : Fin 0 → Fin S65536.rank)
  reducesTo_S65536_S_d0 : S65536.ReducesTo [0] S_
  bcast_S_S512 : S_.BroadcastsInDim S512 (![] : Fin 0 → Fin S512.rank)
  reducesTo_S512_S_d0 : S512.ReducesTo [0] S_

variable [Facts]

def fn {F : FTy → Type} [FloatOps F] (main_arg0 : FVec F S2048x65536 .f32) (main_arg1 : FVec F S65536 .f32) (main_arg2 : FVec F S512 .f32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S2048x65536 : Shape := ⟨2, ![2048, 65536]⟩
abbrev S65536 : Shape := ⟨1, ![65536]⟩
abbrev S512 : Shape := ⟨1, ![512]⟩
abbrev S2048x512 : Shape := ⟨2, ![2048, 512]⟩
abbrev S32x65536 : Shape := ⟨2, ![32, 65536]⟩
abbrev S32x512 : Shape := ⟨2, ![32, 512]⟩
abbrev S1x65536 : Shape := ⟨2, ![1, 65536]⟩
abbrev S32x512x128 : Shape := ⟨3, ![32, 512, 128]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S512, .f32⟩
  | .hbm, ⟨3, _⟩ => ⟨S2048x512, .f32⟩
  | .local _ .vmem, ⟨0, _⟩ => ⟨S32x65536, .f32⟩
  | .local _ .vmem, ⟨1, _⟩ => ⟨S32x65536, .f32⟩
  | .local _ .vmem, ⟨2, _⟩ => ⟨S65536, .f32⟩
  | .local _ .vmem, ⟨3, _⟩ => ⟨S512, .f32⟩
  | .local _ .vmem, ⟨4, _⟩ => ⟨S32x512, .f32⟩
  | .local _ .vmem, ⟨5, _⟩ => ⟨S32x512, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x65536_S32x65536_0_0 : ∀ a, (![0, 0] : Fin 2 → Nat) a + S32x65536.size a ≤ S32x65536.size a
  h_S32x65536 : 0 < S32x65536.numel
  inb_S65536_S65536_0 : ∀ a, (![0] : Fin 1 → Nat) a + S65536.size a ≤ S65536.size a
  h_S65536 : 0 < S65536.numel
  shapeCasts_S65536_S1x65536 : S65536.ShapeCasts S1x65536
  broadcasts_S1x65536_S32x65536 : S1x65536.Broadcasts S32x65536
  shapeCasts_S32x65536_S32x512x128 : S32x65536.ShapeCasts S32x512x128
  reduces_S32x512x128_S32x512 : S32x512x128.Reduces [2] S32x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S2048x65536.size a
  hwx0_0 : ∀ i : grid0.Coords, EltTy.bits .f32 = 32 ∨ (Rect.block (s := S2048x65536) S32x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65536.size a ≤ S65536.size a
  hwx0_1 : ∀ i : grid0.Coords, EltTy.bits .f32 = 32 ∨ (Rect.block (s := S65536) S65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S2048x512.size a
  hwx0_3 : ∀ i : grid0.Coords, EltTy.bits .f32 = 32 ∨ (Rect.block (s := S2048x512) S32x512.size (cc0_transform_3 i) (hinb0_3 i)).WholeWords (EltTy.packing .f32)

variable [Facts₀]

abbrev win0_0 : Pipeline.Window sig grid0 :=
  Pipeline.Window.ofSpec (Memref.whole main_arg0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x65536 : Shape := ⟨2, ![2048, 65536]⟩
abbrev S65536 : Shape := ⟨1, ![65536]⟩
abbrev S512 : Shape := ⟨1, ![512]⟩
abbrev S1x65536 : Shape := ⟨2, ![1, 65536]⟩
abbrev S2048x512x128 : Shape := ⟨3, ![2048, 512, 128]⟩
abbrev S_ : Shape := ⟨0, ![]⟩
abbrev S2048x512 : Shape := ⟨2, ![2048, 512]⟩
abbrev S1x512 : Shape := ⟨2, ![1, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S512, .f32⟩
  | .hbm, ⟨3, _⟩ => ⟨S1x65536, .f32⟩
  | .hbm, ⟨4, _⟩ => ⟨S2048x65536, .f32⟩
  | .hbm, ⟨5, _⟩ => ⟨S2048x65536, .f32⟩
  | .hbm, ⟨6, _⟩ => ⟨S2048x512x128, .f32⟩
  | .hbm, ⟨7, _⟩ => ⟨S_, .f32⟩
  | .hbm, ⟨8, _⟩ => ⟨S2048x512, .f32⟩
  | .hbm, ⟨9, _⟩ => ⟨S1x512, .f32⟩
  | .hbm, ⟨10, _⟩ => ⟨S2048x512, .f32⟩
  | .hbm, ⟨11, _⟩ => ⟨S2048x512, .f32⟩
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  shapeCasts_S2048x65536_S2048x512x128 : S2048x65536.ShapeCasts S2048x512x128
  reducesTo_S2048x512x128_S2048x512_d2 : S2048x512x128.ReducesTo [2] S2048x512
  h_S_ : 0 < S_.numel
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)

variable [Facts₀]

class Facts : Prop extends Facts₀ where

variable [Facts]
-- ==== Proof.SegSumSpec.lean ====
/-
  The specification: a grouped weighted sum.  The 65536 columns of `x` fall into 512 consecutive groups of 128;
  entry `(b, j)` of the result is the sum, over the 128 columns `128 j + k` of group `j`, of
  `x[b, 128 j + k] · w[128 j + k]`, plus `bias[j]`:

      out[b, j] = (∑ k < 128, x[b, 128 j + k] · w[128 j + k]) + bias[j]

  on the extended reals.  Both programs compute exactly this sum of the same 128 products (in some order, which the
  commutative, associative `+` of the extended reals does not see), so no finiteness of the inputs is used.
-/
import Idealize.ShloMosaic.PureOps.Ideal
import Idealize.ShloMosaic.Lib.ValueIdx

noncomputable section

namespace Cert.SegSum

open Idealize.ShloMosaic Idealize.ShloMosaic.ValueIdx
open scoped BigOperators

/-- Column `128 j + k`: the `k`-th column of group `j`. -/
def col (j : Fin 512) (k : Fin 128) : Fin 65536 := ⟨j.val * 128 + k.val, by have := j.isLt; have := k.isLt; omega⟩

theorem col_val (j : Fin 512) (k : Fin 128) : (col j k).val = j.val * 128 + k.val := rfl

/-- The grouped weighted sum with bias, entry by entry. -/
def G (X : (⟨2, ![2048, 65536]⟩ : Shape).Idx → EReal) (W : (⟨1, ![65536]⟩ : Shape).Idx → EReal)
    (B : (⟨1, ![512]⟩ : Shape).Idx → EReal) : (⟨2, ![2048, 512]⟩ : Shape).Idx → EReal :=
  fun i => (∑ k : Fin 128, X (ix2 (i 0) (col (i 1) k)) * W (ix1 (col (i 1) k))) + B (ix1 (i 1))

theorem G_apply (X : (⟨2, ![2048, 65536]⟩ : Shape).Idx → EReal) (W : (⟨1, ![65536]⟩ : Shape).Idx → EReal)
    (B : (⟨1, ![512]⟩ : Shape).Idx → EReal) (b : Fin 2048) (j : Fin 512) :
    G X W B (ix2 b j) = (∑ k : Fin 128, X (ix2 b (col j k)) * W (ix1 (col j k))) + B (ix1 j) := rfl

end Cert.SegSum

end
-- ==== Proof.SegSumBlock.lean ====
/-
  One grid point of the kernel.  The body loads a 32-row block of `x` (all 65536 columns), all of `w` and all of
  `bias`; it multiplies the block by `w` broadcast along the rows, re-lays the 65536 columns as 512 × 128 (row-major),
  sums the last axis, and adds `bias` broadcast along the rows.  Read at entry `(p, q)` of the 32 × 512 result: the
  re-laid product at `(p, q, k)` is the product at column `128 q + k` of row `p`, so the entry is
  `(∑ k < 128, blk[p, 128 q + k] · w[128 q + k]) + bias[q]` — the specification's entry for the row of `x` that row `p`
  of the block is.
-/
import proofs.«134796_j73813307949248_1_alg».proof.Proof.Gen.KernelIdeal.Value
import proofs.«134796_j73813307949248_1_alg».proof.Proof.SegSumSpec
import Idealize.ShloMosaic.Lib.ValueIdx
import Idealize.ShloMosaic.Lib.Pipeline.Value
import Idealize.ShloMosaic.PureOps.Ideal.Laws

noncomputable section

namespace Cert.SegSum.Kern

open Idealize.ShloMosaic Idealize.ShloMosaic.ValueIdx Cert.KernelIdeal Cert.KernelIdeal.Gen Cert.SegSum
open scoped BigOperators

theorem hz2 : (![0, 0] : Fin 2 → Nat) = fun _ => 0 := funext fun a => by fin_cases a <;> rfl
theorem hz1 : (![0] : Fin 1 → Nat) = fun _ => 0 := funext fun a => by fin_cases a; rfl

/-- Row `32 r + p` of the array: row `p` of the `r`-th block of 32 rows. -/
def row (r : Fin 64) (p : Fin 32) : Fin 2048 := ⟨r.val * 32 + p.val, by have := r.isLt; have := p.isLt; omega⟩

theorem row_val (r : Fin 64) (p : Fin 32) : (row r p).val = r.val * 32 + p.val := rfl

/-- The body's result block as an index-by-index function of its three loaded values, read at entry `(p, q)`: the lane
    sum over the 128 columns of group `q` of the products, plus the bias of group `q`. -/
theorem lane_sum (P0 : FVec Ideal S32x65536 .f32) (P1 : FVec Ideal S65536 .f32) (P2 : FVec Ideal S512 .f32)
    (p : Fin 32) (q : Fin 512) :
    Cert.KernelIdeal.Value.E3 (F := Ideal) P0 P1 P2 (ix2 p q)
      = (∑ k : Fin 128, P0 (ix2 p (col q k)) * P1 (ix1 (col q k))) + P2 (ix1 q) := by
  show (multiReduction .add [2] S32x512 (shapeCast S32x512x128 (mulf P0 (broadcastTo S32x65536 (shapeCast S1x65536 P1 shapeCasts_S65536_S1x65536) broadcasts_S1x65536_S32x65536)) shapeCasts_S32x65536_S32x512x128) 0x00000000#32 reduces_S32x512x128_S32x512 (.inl rfl) rfl) (Cert.KernelIdeal.Value.ix3_0 (ix2 p q)) + P2 (Cert.KernelIdeal.Value.ix3_1 (ix2 p q)) = _
  refine congrArg₂ (· + ·) ?_ (congrArg P2 (funext fun a => match a with | ⟨0, _⟩ => rfl))
  refine (Ideal.multiReduction_add_single _ 0x00000000#32 reduces_S32x512x128_S32x512 (.inl rfl) rfl _).trans ?_
  refine Finset.sum_congr rfl fun k _ => ?_
  have hp : p.val < 32 := p.isLt
  have hq : q.val < 512 := q.isLt
  have hk : k.val < 128 := k.isLt
  refine (shapeCast_apply _ shapeCasts_S32x65536_S32x512x128 _ (ix2 p (col q k)) ?_).trans ?_
  · rw [Shape.rowMajor_val_two, Shape.rowMajor_val_three]
    show p.val * 65536 + (q.val * 128 + k.val) = (p.val * 512 + q.val) * 128 + k.val
    omega
  · show P0 (ix2 p (col q k)) * (broadcastTo S32x65536 (shapeCast S1x65536 P1 shapeCasts_S65536_S1x65536) broadcasts_S1x65536_S32x65536) (ix2 p (col q k)) = _
    refine congrArg (P0 (ix2 p (col q k)) * ·) ?_
    refine (broadcastTo_apply _ broadcasts_S1x65536_S32x65536 (ix2 p (col q k)) (ix2 (0 : Fin 1) (col q k)) (fun a => match a with
      | ⟨0, _⟩ => by show 0 = if (1 : Nat) = 1 then 0 else p.val; rw [if_pos rfl]
      | ⟨1, _⟩ => by show (col q k).val = if (65536 : Nat) = 1 then 0 else (col q k).val; rw [if_neg (by decide)])).trans ?_
    exact shapeCast_apply _ shapeCasts_S65536_S1x65536 (ix2 (0 : Fin 1) (col q k)) (ix1 (col q k)) (by
      rw [Shape.rowMajor_val_one, Shape.rowMajor_val_two]
      show (col q k).val = 0 * 65536 + (col q k).val
      omega)

/-- What a grid point leaves in the output's staging buffer, when its three loaded blocks are rows `32 r … 32 r + 31` of
    `X`, all of `W` and all of `B`: entry `(p, q)` is the specification's entry `(32 r + p, q)`. -/
theorem out_block (X : (⟨2, ![2048, 65536]⟩ : Shape).Idx → EReal) (W : (⟨1, ![65536]⟩ : Shape).Idx → EReal)
    (B : (⟨1, ![512]⟩ : Shape).Idx → EReal)
    (x0 : Vec Ideal S32x65536 .f32) (x1 : Vec Ideal S65536 .f32) (x2 : Vec Ideal S512 .f32) (r : Fin 64)
    (h0 : ∀ (p : Fin 32) (c : Fin 65536), x0 (ix2 p c) = X (ix2 (row r p) c))
    (h1 : ∀ c : Fin 65536, x1 (ix1 c) = W (ix1 c)) (h2 : ∀ j : Fin 512, x2 (ix1 j) = B (ix1 j))
    (p : Fin 32) (q : Fin 512) :
    out0_3 (F := Ideal) x0 x1 x2 (ix2 p q) = G X W B (ix2 (row r p) q) := by
  unfold out0_3
  refine (Cert.KernelIdeal.Value.canon3_eq (F := Ideal) _ _ _ (ix2 p q)).trans ?_
  rw [View.ld_unit_zero (S := S32x65536) hz2, View.ld_unit_zero (S := S65536) hz1, View.ld_unit_zero (S := S512) hz1]
  refine (lane_sum x0 x1 x2 p q).trans ?_
  rw [G_apply, h2 q]
  refine congrArg (· + B (ix1 q)) (Finset.sum_congr rfl fun k _ => ?_)
  rw [h0 p (col q k), h1 (col q k)]

end Cert.SegSum.Kern

end
-- ==== Proof.SegSumArray.lean ====
/-
  From grid points to the whole result.  The grid has 64 points; point `t` stages rows `32 t … 32 t + 31` of `x` (all
  columns), all of `w` and all of `bias`, and writes back rows `32 t … 32 t + 31` of the result (all 512 columns).  So
  what point `t` writes back is block `t` of the specification of the whole argument arrays, the 64 row blocks cover
  the 2048 × 512 result (row `b` lies in block `b / 32`), and the result array ends holding the specification.
-/
import proofs.«134796_j73813307949248_1_alg».proof.Proof.Gen.KernelIdeal.Value
import proofs.«134796_j73813307949248_1_alg».proof.Proof.SegSumBlock
import Idealize.ShloMosaic.Lib.Pipeline.Value

noncomputable section

namespace Cert.SegSum.Kern

open Idealize.ShloMosaic Idealize.ShloMosaic.TcCoe Idealize.ShloMosaic.ValueIdx Idealize.SL.Sem
open Cert.KernelIdeal Cert.KernelIdeal.Gen Cert.KernelIdeal.Value Cert.SegSum
open Idealize.ShloMosaic.Pipeline (Dat)

variable (m : (ℓ : Loc nD τ sig) → Buf (Elt Ideal) ℓ) (ρ : Dev nD → PrngReg)

/-- The block index of each window at each of the 64 points: the block of `x` and the block of the result move down
    one block of rows per point; `w` and `bias` stay at their one block. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0 :=
  (by decide +kernel : ∀ t : Fin grid0.N, _)

/-- A grid point as a number below 64. -/
def pt (t : Fin cfg0.N) : Fin 64 := ⟨t.val, Nat.lt_of_lt_of_eq t.isLt N_0⟩

theorem pt_val (t : Fin cfg0.N) : (pt t).val = t.val := rfl

/-- The block of `x` at point `t` is rows `32 t … 32 t + 31` of `x`. -/
theorem xblk_apply (c : Dev nD) (t : Fin cfg0.N) (p : Fin 32) (cc : Fin 65536) :
    (iblk m c 0 t : Vec Ideal S32x65536 .f32) (ix2 p cc)
      = (V m c main_arg0 : S2048x65536.Idx → EReal) (ix2 (row (pt t) p) cc) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 32 + 1 * p.val = t.val * 32 + p.val; rw [e0]; omega
  | ⟨1, _⟩ => show win0_0.index t (1 : Fin 2) * 65536 + 1 * cc.val = cc.val; rw [e1]; omega

/-- The block of `w` at every point is all of `w`. -/
theorem wblk_apply (c : Dev nD) (t : Fin cfg0.N) (cc : Fin 65536) :
    (iblk m c 1 t : Vec Ideal S65536 .f32) (ix1 cc) = (V m c main_arg1 : S65536.Idx → EReal) (ix1 cc) := by
  obtain ⟨-, -, e2, -, -, -⟩ := idx_facts t
  unfold iblk
  rw [View.read_apply]
  show V m c main_arg1 _ = V m c main_arg1 _
  congr 1
  funext a
  apply Fin.ext
  match a with
  | ⟨0, _⟩ => show win0_1.index t (0 : Fin 1) * 65536 + 1 * cc.val = cc.val; rw [e2]; omega

/-- The block of `bias` at every point is all of `bias`. -/
theorem bblk_apply (c : Dev nD) (t : Fin cfg0.N) (j : Fin 512) :
    (iblk m c 2 t : Vec Ideal S512 .f32) (ix1 j) = (V m c main_arg2 : S512.Idx → EReal) (ix1 j) := by
  obtain ⟨-, -, -, e3, -, -⟩ := idx_facts t
  unfold iblk
  rw [View.read_apply]
  show V m c main_arg2 _ = V m c main_arg2 _
  congr 1
  funext a
  apply Fin.ext
  match a with
  | ⟨0, _⟩ => show win0_2.index t (0 : Fin 1) * 512 + 1 * j.val = j.val; rw [e3]; omega

/-- The specification of the argument arrays as the region finds them. -/
abbrev spec (c : Dev nD) : S2048x512.Idx → EReal := G (V m c main_arg0) (V m c main_arg1) (V m c main_arg2)

/-- What point `t` writes back is block `t` of the specification. -/
theorem flushed_eq (c : Dev nD) (t : Fin cfg0.N) :
    (dats m 0 c).flushed 3 t = ((cfg0.win 3).blk t).view.read (Elt Ideal) (spec m c) := by
  rw [flushed3]
  obtain ⟨-, -, -, -, e4, e5⟩ := idx_facts t
  funext j
  obtain ⟨p, q, rfl⟩ : ∃ (p : Fin 32) (q : Fin 512), j = ix2 p q := ⟨j 0, j 1, eq_ix2 j⟩
  show out0_3 (F := Ideal) (iblk m c 0 t) (iblk m c 1 t) (iblk m c 2 t) (ix2 p q) = spec m c (((cfg0.win 3).blk t).view.emb (ix2 p q))
  refine (out_block (V m c main_arg0) (V m c main_arg1) (V m c main_arg2) (iblk m c 0 t) (iblk m c 1 t) (iblk m c 2 t) (pt t)
    (xblk_apply m c t) (wblk_apply m c t) (bblk_apply m c t) p q).trans ?_
  refine congrArg (spec m c) (funext fun a => Fin.ext ?_)
  match a with
  | ⟨0, _⟩ => show t.val * 32 + p.val = win0_3.index t (0 : Fin 2) * 32 + 1 * p.val; rw [e4]; omega
  | ⟨1, _⟩ => show q.val = win0_3.index t (1 : Fin 2) * 512 + 1 * q.val; rw [e5]; omega

/-- An index of the result is in point `t`'s block iff each coordinate is in the block's range on its axis. -/
theorem mem_blk (t : Fin cfg0.N) (i : S2048x512.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v0).slice (win0_3.rect t)).set ↔ _
  rw [View.set_slice_whole, Rect.mem_set_unit]
  exact Iff.rfl

/-- Every entry of the result is in some point's block: row `b` is in block `b / 32`. -/
theorem cover (i : S2048x512.Idx) : ∃ t : Fin cfg0.N, (cfg0.win 3).flush t = true ∧ i ∈ ((cfg0.win 3).blk t).view.set := by
  have hN : cfg0.N = 64 := N_0
  have hi0 : (i 0).val < 2048 := (i 0).isLt
  have hi1 : (i 1).val < 512 := (i 1).isLt
  refine ⟨⟨(i 0).val / 32, by rw [hN]; omega⟩, flush0_3 _, ?_⟩
  rw [mem_blk]
  obtain ⟨-, -, -, -, e4, e5⟩ := idx_facts ⟨(i 0).val / 32, by rw [hN]; omega⟩
  intro a
  match a with
  | ⟨0, _⟩ =>
    show win0_3.index _ (0 : Fin 2) * 32 ≤ (i 0).val ∧ (i 0).val < win0_3.index _ (0 : Fin 2) * 32 + 32
    rw [e4]
    show (i 0).val / 32 * 32 ≤ (i 0).val ∧ (i 0).val < (i 0).val / 32 * 32 + 32
    omega
  | ⟨1, _⟩ =>
    show win0_3.index _ (1 : Fin 2) * 512 ≤ (i 1).val ∧ (i 1).val < win0_3.index _ (1 : Fin 2) * 512 + 512
    rw [e5]
    omega

/-- The result array after the run is the specification of the argument arrays. -/
theorem final (c : Dev nD) : (dats m 0 c).arrAt 3 cfg0.N = spec m c :=
  (dats m 0 c).arrAt_eq_of_cover 3 (spec m c) (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.SegSum.Kern

end
-- ==== Proof.RefIsSegSum.lean ====
/-
  The reference computes the grouped weighted sum.  Its program broadcasts `w` along the rows, multiplies by `x`
  entry by entry, re-lays the 65536 columns as 512 × 128 (row-major: column `c` goes to `(c / 128, c % 128)`), sums the
  last axis from the initial value `0`, and adds the bias broadcast along the rows.  Read at entry `(b, j)`: the
  re-laid product at `(b, j, k)` is the product at column `128 j + k`, so the sum is the specification's, and the
  initial value `0` drops out.
-/
import proofs.«134796_j73813307949248_1_alg».proof.Proof.Gen.ReferenceIdeal.Read
import proofs.«134796_j73813307949248_1_alg».proof.Proof.SegSumSpec

noncomputable section

namespace Cert.SegSum.Ref

open Idealize.ShloMosaic Idealize.ShloMosaic.ValueIdx Cert.ReferenceIdeal Cert.ReferenceIdeal.Read Cert.SegSum
open scoped BigOperators

/-- Entry `(b, j, k)` of the re-laid product sits at column `128 j + k` of row `b`. -/
theorem relaid_idx (i : S2048x512.Idx) (k : Fin 128) : idx_main_v3 (idx_main_v4 i k) = ix2 (i 0) (col (i 1) k) := by
  have h0 : (i 0).val < 2048 := (i 0).isLt
  have h1 : (i 1).val < 512 := (i 1).isLt
  have h2 : k.val < 128 := k.isLt
  funext a
  apply Fin.ext
  match a with
  | ⟨0, _⟩ =>
    show (((i 0).val * 512 + (i 1).val) * 128 + k.val) / 65536 = (i 0).val
    omega
  | ⟨1, _⟩ =>
    show (((i 0).val * 512 + (i 1).val) * 128 + k.val) % 65536 = (i 1).val * 128 + k.val
    omega

/-- The weight broadcast along the rows, read at an entry of column `c`, is `w[c]`. -/
theorem weight_idx (i : S2048x65536.Idx) : idx_main_v0 (idx_main_v1 i) = ix1 (i 1) := by
  funext a
  match a with
  | ⟨0, _⟩ => rfl

/-- The bias broadcast along the rows, read at `(b, j)`, is `bias[j]`. -/
theorem bias_idx (i : S2048x512.Idx) : idx_main_v5 (idx_main_v6 i) = ix1 (i 1) := by
  funext a
  match a with
  | ⟨0, _⟩ => rfl

/-- The reference's result, as a function of its three arguments, is the specification. -/
theorem val_eq (x0 : (⟨S2048x65536, .f32⟩ : BufTy).Contents (Elt Ideal)) (x1 : (⟨S65536, .f32⟩ : BufTy).Contents (Elt Ideal))
    (x2 : (⟨S512, .f32⟩ : BufTy).Contents (Elt Ideal)) :
    val_main_v7 (F := Ideal) x0 x1 x2 = G x0 x1 x2 := by
  funext i
  rw [val_main_v7_apply, val_main_v4_apply, val_main_v6_apply, val_main_v5_apply, val_main_cst_apply, bias_idx]
  show (Ideal.ofBits .f32 0x00000000#32 + ∑ k : Fin 128, val_main_v3 (F := Ideal) x0 x1 (idx_main_v4 i k)) + x2 (ix1 (i 1)) = _
  rw [Ideal.ofBits_zero_f32, zero_add]
  unfold G
  refine congrArg (· + x2 (ix1 (i 1))) (Finset.sum_congr rfl fun k _ => ?_)
  rw [val_main_v3_apply, val_main_v2_apply, val_main_v1_apply, val_main_v0_apply, weight_idx, relaid_idx]
  rfl

end Cert.SegSum.Ref

end
-- ==== Proof.lean ====
/-
  The kernel against its reference, over the extended reals:

      out[b, j] = (∑ k < 128, x[b, 128 j + k] · w[128 j + k]) + bias[j]      (b < 2048, j < 512).

  The kernel walks 64 blocks of 32 rows; at each it multiplies the block of `x` by `w` broadcast along the rows, re-lays
  the 65536 columns as 512 groups of 128, sums each group, adds `bias`, and writes the 32 × 512 block of the result.
  The reference does the same on the whole arrays at once, its sum starting from `0`.  Entry by entry both are the
  sum of the same 128 products plus the same bias (`Cert.SegSum.G`), so they agree on every extended-real input;
  finiteness of the inputs is not used.  The idealization rewrote nothing, so there is nothing to preserve.
-/
import proofs.«134796_j73813307949248_1_alg».proof.Defs
import proofs.«134796_j73813307949248_1_alg».proof.Proof.Gen.Kernel
import proofs.«134796_j73813307949248_1_alg».proof.Proof.Gen.Kernel.Skeleton
import proofs.«134796_j73813307949248_1_alg».proof.Proof.Gen.Kernel.Launch
import proofs.«134796_j73813307949248_1_alg».proof.Proof.Gen.Kernel.Points
import proofs.«134796_j73813307949248_1_alg».proof.Proof.Gen.Kernel.Frame
import proofs.«134796_j73813307949248_1_alg».proof.Proof.Gen.KernelIdeal
import proofs.«134796_j73813307949248_1_alg».proof.Proof.Gen.KernelIdeal.Skeleton
import proofs.«134796_j73813307949248_1_alg».proof.Proof.Gen.KernelIdeal.Launch
import proofs.«134796_j73813307949248_1_alg».proof.Proof.Gen.KernelIdeal.Points
import proofs.«134796_j73813307949248_1_alg».proof.Proof.Gen.KernelIdeal.Frame
import proofs.«134796_j73813307949248_1_alg».proof.Proof.Gen.ReferenceIdeal
import proofs.«134796_j73813307949248_1_alg».proof.Proof.Gen.Pre_finite_inputs
import proofs.«134796_j73813307949248_1_alg».proof.Proof.Gen.KernelIdeal.Value
import proofs.«134796_j73813307949248_1_alg».proof.Proof.Gen.ReferenceIdeal.Run
import proofs.«134796_j73813307949248_1_alg».proof.Proof.Gen.ReferenceIdeal.Read
import proofs.«134796_j73813307949248_1_alg».proof.Proof.SegSumArray
import proofs.«134796_j73813307949248_1_alg».proof.Proof.RefIsSegSum
import Idealize.ShloMosaic.Adequacy
import Idealize.ShloMosaic.Init

noncomputable section

namespace Cert.Proof

open Idealize.ShloMosaic Idealize.ShloMosaic.TcCoe Idealize.SL.Sem

namespace SegSumClaims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the grouped weighted sum `Cert.SegSum.G` of the (agreeing) arguments. -/
theorem algebraic : Cert.algebraic_KernelIdeal_ReferenceIdeal := by
  intro m ρ m' ρ' _ hagree
  refine ⟨_, Cert.SegSum.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.SegSum.Ref.val_eq, (hagree c).1, (hagree c).2.1, (hagree c).2.2]

end SegSumClaims

theorem claim : Cert.Claim := ⟨Cert.Kernel.Gen.facts, Cert.KernelIdeal.Gen.facts, Cert.ReferenceIdeal.Gen.facts, Cert.Pre_finite_inputs.Gen.facts,
  SegSumClaims.frame_k, SegSumClaims.frame_ki, SegSumClaims.frame_ri, trivial, SegSumClaims.algebraic⟩

end Cert.Proof

end
